-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S512x4096 : Shape := ⟨2, ![512, 4096]⟩
abbrev S1x512 : Shape := ⟨2, ![1, 512]⟩
abbrev S256x512 : Shape := ⟨2, ![256, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x4096.size a
  hwx0_3 : ∀ i : grid0.Coords, EltTy.bits .f32 = 32 ∨ (Rect.block (s := S8192x4096) S256x512.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, written once, and the one law that joins them.

  Each entry v of x and of the weight is replaced by its binarization: the value one where v is at least
  zero and minus one elsewhere. The result at row n and column o is the sum over i of the product of the
  binarized x at (n, i) and the binarized weight at (o, i), plus the bias at o.

  The reference reaches the binarization by the detour v + (s - v). Over the extended reals this is s
  whenever v is a real number, whatever s is; at an infinite v it is not. That is the only place where the
  finiteness of the inputs is used.
-/
import Idealize.ShloMosaic.PureOps.Ideal
import Idealize.ShloMosaic.Lib.ValueIdx

noncomputable section

open scoped BigOperators

namespace Cert.BinLinear

open Idealize.ShloMosaic Idealize.ShloMosaic.ValueIdx

/-- The shape of x and of the result. -/
abbrev SX : Shape := ⟨2, ![8192, 4096]⟩
/-- The shape of the weight. -/
abbrev SW : Shape := ⟨2, ![4096, 4096]⟩
/-- The shape of the bias. -/
abbrev SB : Shape := ⟨1, ![4096]⟩

/-- The binarization of one entry: the first constant where the entry is at least the zero constant, the
    second elsewhere. The three constants are kept as the words both programs print; none is evaluated. -/
def sgn (v : EReal) : EReal :=
  Scalar.select (FloatOps.cmpf (F := Ideal) (φ := .f32) .oge v (Ideal.ofBits .f32 0x00000000#32))
    (Ideal.ofBits .f32 0x3F800000#32) (Ideal.ofBits .f32 0xBF800000#32)

/-- The result as one function of the three argument arrays, index by index. -/
def G (x : FVec Ideal SX .f32) (w : FVec Ideal SW .f32) (b : FVec Ideal SB .f32) : FVec Ideal SX .f32 :=
  fun j => (∑ k : Fin 4096, sgn (x (ix2 (j 0) k)) * sgn (w (ix2 (j 1) k))) + b (ix1 (j 1))

/-- Adding back what was subtracted: for a real r and any extended real s, r + (s - r) = s. -/
theorem real_add_sub_cancel (r : ℝ) (s : EReal) : (r : EReal) + (s - (r : EReal)) = s := by
  induction s using EReal.rec with
  | bot => rw [EReal.bot_sub, EReal.add_bot]
  | coe s => rw [← EReal.coe_sub, ← EReal.coe_add]; congr 1; ring
  | top => rw [EReal.top_sub_coe, EReal.coe_add_top]

/-- Every entry of an array is a real number. -/
def AllReal {s : Shape} (x : s.Idx → EReal) : Prop := ∀ i, ∃ r : ℝ, x i = (r : EReal)

/-- The detour at an entry that is real gives the binarization itself. -/
theorem detour_eq (v : EReal) (hv : ∃ r : ℝ, v = (r : EReal)) : v + (sgn v - v) = sgn v := by
  obtain ⟨r, rfl⟩ := hv
  exact real_add_sub_cancel r _

end Cert.BinLinear

end
-- ==== Proof.KernelBlock.lean ====
/-
  What the kernel body computes from its three blocks, read at one entry.

  The body binarizes the x block and the weight block, transposes the binarized weight block, multiplies
  the two on the matrix unit into a zero accumulator, and adds the bias row broadcast along the rows. The
  change of float format in front of the matrix unit is the identity over the extended reals. So the entry
  at row p and column q of the output block is the sum over k of the binarized x block at (p, k) times the
  binarized weight block at (q, k), plus the bias row at q.
-/
import proofs.«149231_j65343632442057_1_alg».proof.Proof.Gen.KernelIdeal.Skeleton
import proofs.«149231_j65343632442057_1_alg».proof.Proof.Spec
import Idealize.ShloMosaic.Lib.Pipeline.Value
import Idealize.ShloMosaic.Lib.ValueLayout
import Idealize.ShloMosaic.PureOps.Ideal.Laws

noncomputable section

open scoped BigOperators

namespace Cert.BinLinear.Ker

open Cert.KernelIdeal Cert.KernelIdeal.Gen
open Idealize.ShloMosaic Idealize.ShloMosaic.ValueIdx Cert.BinLinear

/-! ## The matrix product's operand indices, axis by axis -/

/-- The left operand's row is the output's row. -/
theorem lhs_mm_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
/-- The left operand's column is the contraction coordinate. -/
theorem lhs_mm_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
/-- The right operand's row is the contraction coordinate. -/
theorem rhs_mm_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
/-- The right operand's column is the output's column. -/
theorem rhs_mm_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-! ## The body's result at an entry -/

/-- The stored value at row p and column q of the output block: the sum over k of the two binarizations,
    the weight block read at (q, k) because the body transposes it before the product, plus the bias row
    at q. -/
theorem pay_apply (x0 : FVec Ideal S256x4096 .f32) (x1 : FVec Ideal S512x4096 .f32) (x2 : FVec Ideal S1x512 .f32)
    (p : Fin 256) (q : Fin 512) :
    k0_pay1 (F := Ideal) x0 x1 x2 (ix2 p q)
      = (∑ k : Fin 4096, sgn (x0 (ix2 p k)) * sgn (x1 (ix2 q k))) + x2 (ix2 (0 : Fin 1) q) := by
  unfold k0_pay1
  rw [addf_apply]
  refine congrArg₂ (· + ·) ?_ ?_
  · refine (Ideal.matmul_constant_zero_apply dot_S256x4096_S4096x512_S256x512_1_0_0_1_n_n none _ _ (ix2 p q)).trans ?_
    rw [← Equiv.sum_comp (contrEquiv1 dot_S256x4096_S4096x512_S256x512_1_0_0_1_n_n 4096 rfl rfl).symm]
    refine Finset.sum_congr rfl fun k _ => ?_
    have hk := contrEquiv1_symm_val dot_S256x4096_S4096x512_S256x512_1_0_0_1_n_n 4096 rfl rfl k
    have el : dot_S256x4096_S4096x512_S256x512_1_0_0_1_n_n.lhsIdx (ix2 p q) ((contrEquiv1 dot_S256x4096_S4096x512_S256x512_1_0_0_1_n_n 4096 rfl rfl).symm k) = ix2 p k := funext fun a => Fin.ext (by
      match a with
      | ⟨0, _⟩ => exact lhs_mm_0 _ _
      | ⟨1, _⟩ => exact (lhs_mm_1 _ _).trans hk)
    have er : dot_S256x4096_S4096x512_S256x512_1_0_0_1_n_n.rhsIdx (ix2 p q) ((contrEquiv1 dot_S256x4096_S4096x512_S256x512_1_0_0_1_n_n 4096 rfl rfl).symm k) = ix2 k q := funext fun a => Fin.ext (by
      match a with
      | ⟨0, _⟩ => exact (rhs_mm_0 _ _).trans hk
      | ⟨1, _⟩ => exact rhs_mm_1 _ _)
    rw [el, er, truncf_apply, transpose_ix2_apply, truncf_apply]
    rfl
  · rw [shapeCast_self]
    exact broadcastTo_apply x2 _ (ix2 p q) (ix2 (0 : Fin 1) q) (fun a => match a with
      | ⟨0, _⟩ => by show (0 : ℕ) = if (1 : Nat) = 1 then 0 else _; rw [if_pos rfl]
      | ⟨1, _⟩ => by show q.val = if (512 : Nat) = 1 then 0 else q.val; rw [if_neg (by decide)])

/-- The same at any entry of the output block, its row and column read off the index. -/
theorem pay_at (x0 : FVec Ideal S256x4096 .f32) (x1 : FVec Ideal S512x4096 .f32) (x2 : FVec Ideal S1x512 .f32)
    (j : S256x512.Idx) :
    k0_pay1 (F := Ideal) x0 x1 x2 j
      = (∑ k : Fin 4096, sgn (x0 (ix2 (j 0) k)) * sgn (x1 (ix2 (j 1) k))) + x2 (ix2 (0 : Fin 1) (j 1)) := by
  obtain ⟨p, q, rfl⟩ : ∃ (p : Fin 256) (q : Fin 512), j = ix2 p q := ⟨j 0, j 1, eq_ix2 j⟩
  exact pay_apply x0 x1 x2 p q

end Cert.BinLinear.Ker

end
-- ==== Proof.KernelArray.lean ====
/-
  From the output's blocks to the whole output array.

  The grid has 8 x 32 points. At the point with coordinates (a, b) the body is given rows 256 b .. 256 b + 255
  of x, rows 512 a .. 512 a + 511 of the weight and columns 512 a .. 512 a + 511 of the bias row, and
  writes the block of the output at rows 256 b .. and columns 512 a ... By the block lemma the entry of that
  block at (p, q) depends on row 256 b + p of x and row 512 a + q of the weight only, so every point writes
  the restriction of ONE function of the whole arrays to its block. The 256 blocks tile the 8192 x 4096
  output: the entry at (r, s) lies in the block of the point (s / 512, r / 256). Hence the output array ends
  holding that function everywhere.

  The bias reaches the kernel reshaped from 4096 entries to one row of 4096; reading the row at column s is
  reading the bias at s.
-/
import proofs.«149231_j65343632442057_1_alg».proof.Proof.Gen.KernelIdeal.Value
import proofs.«149231_j65343632442057_1_alg».proof.Proof.KernelBlock
import Idealize.ShloMosaic.Lib.StableHlo.Run

noncomputable section

open scoped BigOperators

namespace Cert.BinLinear.Ker

open Cert.KernelIdeal Cert.KernelIdeal.Gen
open Idealize.ShloMosaic Idealize.ShloMosaic.TcCoe Idealize.SL.Sem Idealize.ShloMosaic.StableHlo
open Idealize.ShloMosaic.ValueIdx Cert.BinLinear
open Idealize.ShloMosaic.Pipeline (Dat)

variable (m : (ℓ : Loc nD τ sig) → Buf (Elt Ideal) ℓ) (ρ : Dev nD → PrngReg)

/-- The offset of every whole-block access is zero on both axes. -/
theorem off_zero : (![0, 0] : Fin 2 → Nat) = fun _ => 0 := funext fun a => by fin_cases a <;> rfl

/-- The function of the specification with the bias given as one row. -/
def Grow (X : FVec Ideal S8192x4096 .f32) (W : FVec Ideal S4096x4096 .f32) (B : FVec Ideal S1x4096 .f32) :
    FVec Ideal S8192x4096 .f32 :=
  fun j => (∑ k : Fin 4096, sgn (X (ix2 (j 0) k)) * sgn (W (ix2 (j 1) k))) + B (ix2 (0 : Fin 1) (j 1))

/-- The four windows' block indices at every grid point, in terms of the point's position: the fast grid
    axis (32 steps) moves the rows of x and of the output, the slow one (8 steps) the rows of the weight and
    the columns of the bias and of the output. -/
theorem idx_facts : ∀ t : Fin cfg0.N,
    win0_3.index t (0 : Fin 2) = t.val % 32 ∧ win0_3.index t (1 : Fin 2) = t.val / 32
    ∧ win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = 0 ∧ win0_2.index t (1 : Fin 2) = t.val / 32 :=
  (by decide +kernel : ∀ t : Fin grid0.N, _)

/-- What a point writes back is its block of the one function of the whole arrays. -/
theorem flushed_eq (c : Dev nD) (t : Fin cfg0.N) :
    (dats m 0 c).flushed 3 t
      = ((cfg0.win 3).blk t).view.read (Elt Ideal) (Grow (V m c main_arg0) (V m c main_arg1) (V m c main_v0)) := by
  rw [Cert.KernelIdeal.Value.flushed3]
  unfold out0_3
  rw [View.canon_unit_zero off_zero]
  simp only [View.ld_unit_zero (S := S256x4096) off_zero, View.ld_unit_zero (S := S512x4096) off_zero,
    View.ld_unit_zero (S := S1x512) off_zero]
  obtain ⟨e30, e31, e00, e01, e10, e11, e20, e21⟩ := idx_facts t
  funext j
  show k0_pay1 (F := Ideal) (iblk m c 0 t) (iblk m c 1 t) (iblk m c 2 t) j
    = Grow (V m c main_arg0) (V m c main_arg1) (V m c main_v0) (((cfg0.win 3).blk t).view.emb j)
  refine (pay_at _ _ _ j).trans ?_
  unfold Grow
  have hj0 : (j 0).val < 256 := (j 0).isLt
  have hj1 : (j 1).val < 512 := (j 1).isLt
  refine congrArg₂ (· + ·) (Finset.sum_congr rfl fun k _ => congrArg₂ (· * ·) (congrArg sgn ?_) (congrArg sgn ?_)) ?_
  · show V m c main_arg0 (((cfg0.win 0).blk t).view.emb (ix2 (j 0) k))
      = V m c main_arg0 (ix2 ((((cfg0.win 3).blk t).view.emb j) 0) k)
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * k.val = k.val; omega
  · show V m c main_arg1 (((cfg0.win 1).blk t).view.emb (ix2 (j 1) k))
      = V m c main_arg1 (ix2 ((((cfg0.win 3).blk t).view.emb j) 1) k)
    refine congrArg _ (funext fun a => Fin.ext ?_)
    match a with
    | ⟨0, _⟩ => show win0_1.index t (0 : Fin 2) * 512 + 1 * (j 1).val = win0_3.index t (1 : Fin 2) * 512 + 1 * (j 1).val; omega
    | ⟨1, _⟩ => show win0_1.index t (1 : Fin 2) * 4096 + 1 * k.val = k.val; omega
  · show V m c main_v0 (((cfg0.win 2).blk t).view.emb (ix2 (0 : Fin 1) (j 1)))
      = V m c main_v0 (ix2 (0 : Fin 1) ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of the output array lies in a point's block iff each coordinate lies in the block's range. -/
theorem mem_blk (t : Fin cfg0.N) (i : S8192x4096.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v1).slice (win0_3.rect t)).set ↔ _
  rw [View.set_slice_whole, Rect.mem_set_unit]
  exact Iff.rfl

/-- Every index of the output array lies in the block of some point, and every point writes its block
    back: the entry at (r, s) belongs to the point at position (s / 512) * 32 + r / 256. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  obtain ⟨t, ht⟩ : ∃ t : Fin cfg0.N, t.val = (i 1).val / 512 * 32 + (i 0).val / 256 :=
    ⟨⟨(i 1).val / 512 * 32 + (i 0).val / 256, by omega⟩, rfl⟩
  obtain ⟨e30, e31, -⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- The output array after the run is the one function of the arrays as the region finds them. -/
theorem final (c : Dev nD) :
    (dats m 0 c).arrAt 3 cfg0.N = Grow (V m c main_arg0) (V m c main_arg1) (V m c main_v0) :=
  (dats m 0 c).arrAt_eq_of_cover 3 _ (fun t _ => flushed_eq m c t) cover

/-- The bias window's array is the bias reshaped to one row. -/
theorem V_bias (c : Dev nD) :
    (V m c main_v0 : S1x4096.Idx → EReal)
      = shapeCast S1x4096 (m ((c : Thread nD τ).loc main_arg2)) shapeCasts_S4096_S1x4096 := by
  dsimp only [V, hostOps0]
  after_results
  rfl

/-- Reading the reshaped bias at column s of its one row is reading the bias at s: with the bias as a row
    of the reshaped array, the function above is the specification's. -/
theorem Grow_reshape (X : FVec Ideal S8192x4096 .f32) (W : FVec Ideal S4096x4096 .f32) (b : FVec Ideal S4096 .f32) :
    Grow X W (shapeCast S1x4096 b shapeCasts_S4096_S1x4096) = G X W b := by
  funext j
  unfold Grow G
  refine congrArg (_ + ·) ?_
  refine shapeCast_apply b shapeCasts_S4096_S1x4096 (ix2 (0 : Fin 1) (j 1)) (ix1 (j 1)) ?_
  rw [Shape.rowMajor_val_one, Shape.rowMajor_val_two]
  show (j 1).val = 0 * 4096 + (j 1).val
  omega

/-- The kernel's run with its output named: every weakly fair execution ends with the output array at the
    specification's function of the three arguments, and the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
      rw [final m c, V_main_arg0, V_main_arg1, V_bias m c]
      exact Grow_reshape _ _ _), (h c).2⟩)
    (Cert.KernelIdeal.Value.run_blocks m ρ)

end Cert.BinLinear.Ker

end
-- ==== Proof.RefValue.lean ====
/-
  The reference computes the function G of the specification.

  Read one operation at a time, each operand of the reference's matrix product is the detour v + (s - v)
  around the binarization s of an entry v. At real entries the detour is the binarization itself, so the
  product's entry at (n, o) is the sum over i of the two binarizations, and adding the bias broadcast along
  the rows gives G.
-/
import proofs.«149231_j65343632442057_1_alg».proof.Proof.Gen.ReferenceIdeal.Read
import proofs.«149231_j65343632442057_1_alg».proof.Proof.Spec

noncomputable section

open scoped BigOperators

namespace Cert.BinLinear.Ref

open Cert.ReferenceIdeal Cert.ReferenceIdeal.Gen Cert.ReferenceIdeal.Read
open Idealize.ShloMosaic Idealize.ShloMosaic.ValueIdx Cert.BinLinear

/-- The reference's left operand at an index is the binarization of x there, when x is real there. -/
theorem binarized_x (x : FVec Ideal SX .f32) (hx : AllReal x) (i : SX.Idx) :
    val_main_v5 (F := Ideal) x i = sgn (x i) := by
  rw [val_main_v5_apply, val_main_v4_apply, val_main_v3_apply, val_main_v2_apply, val_main_v1_apply,
    val_main_v0_apply, val_main_cst_apply, val_main_call0_v0_apply, val_main_cst_0_apply,
    val_main_call0_v1_apply, val_main_cst_1_apply]
  exact detour_eq (x i) (hx i)

/-- The reference's right operand at an index is the binarization of the weight there, when the weight is
    real there. -/
theorem binarized_w (w : FVec Ideal SW .f32) (hw : AllReal w) (i : SW.Idx) :
    val_main_v11 (F := Ideal) w i = sgn (w i) := by
  rw [val_main_v11_apply, val_main_v10_apply, val_main_v9_apply, val_main_v8_apply, val_main_v7_apply,
    val_main_v6_apply, val_main_cst_2_apply, val_main_call1_v0_apply, val_main_cst_3_apply,
    val_main_call1_v1_apply, val_main_cst_4_apply]
  exact detour_eq (w i) (hw i)

/-- The product's left index at result index i and contraction coordinate k is (row of i, k). -/
theorem lidx_eq (i : SX.Idx) (k : Fin 4096) : lidx_main_v12 i k = ix2 (i 0) k :=
  funext fun a => by match a with | ⟨0, _⟩ => rfl | ⟨1, _⟩ => rfl

/-- The product's right index at result index i and contraction coordinate k is (column of i, k): the
    contraction runs along the second axis of both operands. -/
theorem ridx_eq (i : SX.Idx) (k : Fin 4096) : ridx_main_v12 i k = ix2 (i 1) k :=
  funext fun a => by match a with | ⟨0, _⟩ => rfl | ⟨1, _⟩ => rfl

/-- The bias, broadcast to a row and then along the rows, is read at the column of the index. -/
theorem bias_idx_eq (i : SX.Idx) : idx_main_v13 (idx_main_v14 i) = ix1 (i 1) :=
  funext fun a => by match a with | ⟨0, _⟩ => rfl

/-- The reference's result, as the last stage of its run, is G of the arguments when x and the weight are
    real everywhere. -/
theorem ref_eq_G (x : FVec Ideal SX .f32) (w : FVec Ideal SW .f32) (b : FVec Ideal SB .f32)
    (hx : AllReal x) (hw : AllReal w) : val_main_v15 (F := Ideal) x w b = G x w b := by
  funext i
  rw [val_main_v15_apply, val_main_v12_apply, val_main_v14_apply, val_main_v13_apply, bias_idx_eq]
  show (∑ k : Fin 4096, _) + _ = _
  unfold G
  refine congrArg (· + b (ix1 (i 1))) (Finset.sum_congr rfl fun k _ => ?_)
  rw [binarized_x x hx, binarized_w w hw, lidx_eq, ridx_eq]
  rfl

end Cert.BinLinear.Ref

end
-- ==== Proof.Finite.lean ====
/-
  From the precondition to real entries.

  The precondition compares the absolute value of every entry of each input with plus infinity, takes the
  conjunction over each array and then over the three arrays, and says the result is true. An extended real
  whose absolute value is below plus infinity is neither infinity, so it is a real number. Only x and the
  weight are needed: the bias enters the result by one addition on both sides alike.
-/
import proofs.«149231_j65343632442057_1_alg».proof.Pre_finite_inputs
import proofs.«149231_j65343632442057_1_alg».proof.Proof.Gen.Pre_finite_inputs
import proofs.«149231_j65343632442057_1_alg».proof.Proof.Spec
import Idealize.ShloMosaic.Lib.ReduceAll

noncomputable section

namespace Cert.BinLinear.Finite

open Cert.Pre_finite_inputs Cert.Pre_finite_inputs.Gen
open Idealize.ShloMosaic Idealize.ShloMosaic.ValueIdx Cert.BinLinear

/-- The scalar shape has one index. -/
instance : Subsingleton S_.Idx := ⟨fun a b => funext fun d => d.elim0⟩

/-- An extended real whose absolute value compares below the pattern of plus infinity is a real number. -/
theorem real_of_abs_lt (v : EReal)
    (h : FloatOps.cmpf (F := Ideal) (φ := .f32) .olt (FloatOps.hostAbsf v) (FloatOps.ofBits .f32 0x7F800000#32) = 1#1) :
    ∃ r : ℝ, v = (r : EReal) := by
  have htop : Ideal.ofBits .f32 0x7F800000#32 = ⊤ := by simp [Ideal.ofBits, Ideal.ieee]
  change Ideal.cmp .olt (max v (-v)) (Ideal.ofBits .f32 0x7F800000#32) = 1#1 at h
  rw [htop] at h
  unfold Ideal.cmp at h
  induction v using EReal.rec with
  | bot => exfalso; simp at h
  | coe r => exact ⟨r, rfl⟩
  | top => exfalso; simp at h

/-- Under the precondition every entry of x and every entry of the weight is a real number. -/
theorem real_of_pre (x : FVec Ideal S8192x4096 .f32) (w : FVec Ideal S4096x4096 .f32) (b : FVec Ideal S4096 .f32)
    (h : Cert.Pre_finite_inputs.fn (F := Ideal) x w b = fun _ => 1#1) : AllReal x ∧ AllReal w := by
  have h0 := congrFun h ix0
  dsimp only [Cert.Pre_finite_inputs.fn] at h0
  obtain ⟨h01, -⟩ := IntOp.andi_eq_one.mp h0
  obtain ⟨hx, hw⟩ := IntOp.andi_eq_one.mp h01
  exact ⟨fun i => real_of_abs_lt _ (Host.reduce_andi_all _ _ _ _ ix0 hx i),
    fun i => real_of_abs_lt _ (Host.reduce_andi_all _ _ _ _ ix0 hw i)⟩

end Cert.BinLinear.Finite

end
-- ==== Proof.lean ====
/-
  A binarized linear layer: out[n, o] = sum over i of s(x[n, i]) * s(w[o, i]) + bias[o], where s(v) is one
  for v at least zero and minus one otherwise, over x of 8192 x 4096, w of 4096 x 4096 and a bias of 4096.

  The kernel tiles the output into 8 x 32 blocks of 256 x 512. At a grid point it binarizes 256 rows of x and
  512 rows of w, multiplies the first by the transpose of the second on the matrix unit into a zero
  accumulator (the narrowing to bf16 in front of the unit is the identity over the extended reals) and adds
  the bias row. The reference binarizes by the detour v + (s(v) - v), contracts the second axes of the two
  binarized arrays against each other, and adds the bias broadcast along the rows.

  Over the extended reals both are the same sum of products of the same binarizations, provided the detour
  returns s(v). It does whenever v is a real number: r + (s - r) = s for real r and any s. At an infinite v
  it does not, and this is where the finiteness of x and w, which the precondition grants, is used. The
  constants 0, 1 and -1 are the same words on both sides and are never evaluated.

  The three frame claims are the generated runs. The idealization rewrote nothing, so there is nothing to
  preserve. The value claim sets the kernel's run, its output array read as one function of the arguments
  (Proof/KernelBlock.lean for a block, Proof/KernelArray.lean for the array), beside the reference's run read
  one operation at a time (Proof/RefValue.lean), with the real entries from Proof/Finite.lean.
-/
import proofs.«149231_j65343632442057_1_alg».proof.Defs
import proofs.«149231_j65343632442057_1_alg».proof.Proof.Gen.Kernel
import proofs.«149231_j65343632442057_1_alg».proof.Proof.Gen.Kernel.Skeleton
import proofs.«149231_j65343632442057_1_alg».proof.Proof.Gen.Kernel.Launch
import proofs.«149231_j65343632442057_1_alg».proof.Proof.Gen.Kernel.Points
import proofs.«149231_j65343632442057_1_alg».proof.Proof.Gen.Kernel.Frame
import proofs.«149231_j65343632442057_1_alg».proof.Proof.Gen.KernelIdeal
import proofs.«149231_j65343632442057_1_alg».proof.Proof.Gen.KernelIdeal.Skeleton
import proofs.«149231_j65343632442057_1_alg».proof.Proof.Gen.KernelIdeal.Launch
import proofs.«149231_j65343632442057_1_alg».proof.Proof.Gen.KernelIdeal.Points
import proofs.«149231_j65343632442057_1_alg».proof.Proof.Gen.KernelIdeal.Frame
import proofs.«149231_j65343632442057_1_alg».proof.Proof.Gen.ReferenceIdeal
import proofs.«149231_j65343632442057_1_alg».proof.Proof.Gen.Pre_finite_inputs
import proofs.«149231_j65343632442057_1_alg».proof.Proof.Gen.KernelIdeal.Value
import proofs.«149231_j65343632442057_1_alg».proof.Proof.Gen.ReferenceIdeal.Run
import proofs.«149231_j65343632442057_1_alg».proof.Proof.Gen.ReferenceIdeal.Read
import proofs.«149231_j65343632442057_1_alg».proof.Proof.KernelArray
import proofs.«149231_j65343632442057_1_alg».proof.Proof.RefValue
import proofs.«149231_j65343632442057_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the specification's function of the arguments in their result arrays: the kernel
    by its blocks, the reference because its detour around the binarization cancels at the real entries the
    precondition grants. -/
theorem algebraic : Cert.algebraic_KernelIdeal_ReferenceIdeal := by
  intro m ρ m' ρ' hpre hagree
  refine ⟨_, Cert.BinLinear.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  obtain ⟨hx, hw⟩ := Cert.BinLinear.Finite.real_of_pre _ _ _ (hpre c)
  exact Cert.BinLinear.Ref.ref_eq_G _ _ _ hx hw

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
